-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 32000#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x32000 : Shape := ⟨2, ![4096, 32000]⟩
abbrev S4096 : Shape := ⟨1, ![4096]⟩
abbrev S4096x1 : Shape := ⟨2, ![4096, 1]⟩
abbrev S128x32000 : Shape := ⟨2, ![128, 32000]⟩
abbrev S128x1 : Shape := ⟨2, ![128, 1]⟩
abbrev S128 : Shape := ⟨1, ![128]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S4096x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S128x32000, .f32⟩
  | .local _ .vmem, ⟨1, _⟩ => ⟨S128x32000, .f32⟩
  | .local _ .vmem, ⟨2, _⟩ => ⟨S128x1, .i32⟩
  | .local _ .vmem, ⟨3, _⟩ => ⟨S128x1, .i32⟩
  | .local _ .vmem, ⟨4, _⟩ => ⟨S128x1, .f32⟩
  | .local _ .vmem, ⟨5, _⟩ => ⟨S128x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S4096x1 : S4096.ShapeCasts S4096x1
  inb_S128x32000_S128x32000_0_0 : ∀ a, (![0, 0] : Fin 2 → Nat) a + S128x32000.size a ≤ S128x32000.size a
  h_S128x32000 : 0 < S128x32000.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x32000_S128 : S128x32000.Reduces [1] S128
  shapeCasts_S128_S128x1 : S128.ShapeCasts S128x1
  broadcasts_S128x1_S128x32000 : S128x1.Broadcasts S128x32000
  iota_S128x32000_d1_w32 : S128x32000.Iotas .tc 32 [1]
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32000.size a ≤ S4096x32000.size a
  hwx0_0 : ∀ i : grid0.Coords, EltTy.bits .f32 = 32 ∨ (Rect.block (s := S4096x32000) S128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .i32 = 32 ∨ (Rect.block (s := S4096x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)

variable [Facts₀]

abbrev win0_0 : Pipeline.Window sig grid0 :=
  Pipeline.Window.ofSpec (Memref.whole main_arg0) S128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x32000, .f32⟩
  | .hbm, ⟨16, _⟩ => ⟨S4096x32000, .f32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S4096x1x1, .i32⟩
  | .hbm, ⟨26, _⟩ => ⟨S1, .i32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S1x1x1, .i32⟩
  | .hbm, ⟨31, _⟩ => ⟨S4096x1x1, .i32⟩
  | .hbm, ⟨32, _⟩ => ⟨S4096x1x1, .i1⟩
  | .hbm, ⟨33, _⟩ => ⟨S4096x1x1, .i1⟩
  | .hbm, ⟨34, _⟩ => ⟨S_, .i1⟩
  | .hbm, ⟨35, _⟩ => ⟨S4096x1, .i1⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096, .f32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_c : Ref sig .tc := ⟨.hbm, 41, rfl⟩
abbrev main_v4 : Ref sig .tc := ⟨.hbm, 42, rfl⟩
abbrev main_v5 : Ref sig .tc := ⟨.hbm, 43, rfl⟩
abbrev main_cst : Ref sig .tc := ⟨.hbm, 44, rfl⟩
abbrev main_cst_0 : Ref sig .tc := ⟨.hbm, 45, rfl⟩
abbrev main_call2_v0 : Ref sig .tc := ⟨.hbm, 46, rfl⟩
abbrev main_call2_v1 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_cst_2 : Ref sig .tc := ⟨.hbm, 53, rfl⟩
abbrev main_v10 : Ref sig .tc := ⟨.hbm, 54, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.Spec.lean ====
/-
  Cross-entropy with a label weight, as one function of the logits and the labels.

  For a row `v` of 32000 logits and a label `t`: with `M = max_k v k` and `L = log (∑_k exp (v k − M))`, the
  log-probability of the label is `(v t − M) − L`, the row's loss is minus that, times `1.5` for a nonzero label and
  `1` for the label `0`, and the result is the mean of the 4096 row losses.

  Two programs compute it in two groupings: one forms `v t − (M + L)`, the other `(v t − M) − L`. On the extended
  reals these agree as soon as `v t` and `M` are real (`L` may be anything): `sub_add_eq_sub_sub_of_real`. And one
  of them picks the label's logit as the sum over the columns of the logits masked by "the column is the label",
  which is the logit at the label when the label is a column: `sum_mask_eq`.
-/
import Idealize.ShloMosaic.PureOps.Ideal
import Idealize.ShloMosaic.PureOps.Ideal.Laws
import Idealize.ShloMosaic.Lib.ValueIdx
import Mathlib.Data.Finset.Fold

noncomputable section

namespace Cert.CrossEntropy

open Idealize.ShloMosaic Idealize.ShloMosaic.ValueIdx

/-- The largest entry of a row. -/
def rowMax (v : Fin 32000 → EReal) : EReal := (Finset.univ : Finset (Fin 32000)).fold max ⊥ v

/-- `log ∑_k exp (v k − max v)`. -/
def rowLogSum (v : Fin 32000 → EReal) : EReal := Ideal.log (∑ k : Fin 32000, Ideal.exp (v k - rowMax v))

/-- The label's weight: the value of the f32 word `1.0` for the label `0`, of `1.5` for any other. -/
def weight (t : BitVec 32) : EReal :=
  if t = 0#32 then Ideal.ofBits .f32 0x3F800000#32 else Ideal.ofBits .f32 0x3FC00000#32

/-- The column a label word names (labels are in `[0, 32000)`; any other word is folded into range, so that the
    function is total). -/
def col (t : BitVec 32) : Fin 32000 := ⟨t.toNat % 32000, Nat.mod_lt _ (by decide)⟩

/-- One row's weighted negative log-probability of its label. -/
def rowLoss (v : Fin 32000 → EReal) (t : BitVec 32) : EReal :=
  -(((v (col t) - rowMax v) - rowLogSum v) * weight t)

/-- The mean over the 4096 rows (the sum divided by the value of the f32 word `4096.0`). -/
def meanLoss (x : (⟨2, ![4096, 32000]⟩ : Shape).Idx → EReal) (t : (⟨1, ![4096]⟩ : Shape).Idx → BitVec 32) : EReal :=
  Ideal.div (∑ r : Fin 4096, rowLoss (fun k => x (ix2 r k)) (t (ix1 r))) (Ideal.ofBits .f32 0x45800000#32)

/-- A fold of `max` from `⊥` over real entries of a nonempty row is real. -/
theorem rowMax_real (v : Fin 32000 → EReal) (hv : ∀ k, ∃ r : ℝ, v k = (r : EReal)) : ∃ r : ℝ, rowMax v = (r : EReal) := by
  choose f hf using hv
  refine ⟨(Finset.univ : Finset (Fin 32000)).sup' ⟨⟨0, by decide⟩, Finset.mem_univ _⟩ f, ?_⟩
  unfold rowMax
  apply le_antisymm
  · refine (Finset.fold_max_le _).mpr ⟨bot_le, fun k _ => ?_⟩
    rw [hf k, EReal.coe_le_coe_iff]
    exact Finset.le_sup' f (Finset.mem_univ k)
  · obtain ⟨k, -, hk⟩ := Finset.exists_mem_eq_sup' (⟨⟨0, by decide⟩, Finset.mem_univ _⟩ : (Finset.univ : Finset (Fin 32000)).Nonempty) f
    rw [hk, ← hf k]
    exact (Finset.le_fold_max _).mpr (Or.inr ⟨k, Finset.mem_univ k, le_rfl⟩)

/-- With `a` and `b` real, `a − (b + c) = (a − b) − c` for every extended real `c`. -/
theorem sub_add_eq_sub_sub_of_real (a b : ℝ) (c : EReal) : (a : EReal) - ((b : EReal) + c) = ((a : EReal) - (b : EReal)) - c := by
  induction c using EReal.rec with
  | bot => simp [sub_eq_add_neg]
  | top => simp [sub_eq_add_neg]
  | coe c => norm_cast; ring

/-- The sum over the columns of the row masked by "the column's number, as a word, is the label" is the row's entry at
    the label, when the label is a column. -/
theorem sum_mask_eq (v : Fin 32000 → EReal) (t : BitVec 32) (ht : t.toNat < 32000) :
    (∑ k : Fin 32000, if BitVec.ofNat 32 k.val = t then v k else 0) = v (col t) := by
  rw [Finset.sum_eq_single (col t)]
  · rw [if_pos]
    apply BitVec.eq_of_toNat_eq
    rw [BitVec.toNat_ofNat]
    show (t.toNat % 32000) % 2 ^ 32 = t.toNat
    rw [Nat.mod_eq_of_lt ht, Nat.mod_eq_of_lt t.isLt]
  · intro k _ hk
    rw [if_neg]
    intro h
    apply hk
    apply Fin.ext
    have hk' : t.toNat = k.val := by
      rw [← h, BitVec.toNat_ofNat]
      exact Nat.mod_eq_of_lt (by have := k.isLt; omega)
    show k.val = t.toNat % 32000
    rw [hk', Nat.mod_eq_of_lt k.isLt]
  · intro h; exact absurd (Finset.mem_univ _) h

end Cert.CrossEntropy

end
-- ==== Proof.PreDecode.lean ====
/-
  What the precondition says of the inputs: every logit is a real number, and every label is a column number.
-/
import proofs.«417755_j57767310131345_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.CrossEntropy.Pre

open Idealize.ShloMosaic Idealize.ShloMosaic.ValueIdx Cert.Pre_finite_inputs

variable [Cert.Pre_finite_inputs.Facts]

/-- The rank-0 shape has one index. -/
private instance subsingleton_scalar_idx : Subsingleton S_.Idx := ⟨fun a b => funext fun d => d.elim0⟩

/-- The word of `+∞` denotes the top of the extended reals. -/
private theorem ofBits_inf : Ideal.ofBits .f32 0x7F800000#32 = ⊤ := by simp [Ideal.ofBits, Ideal.ieee]

/-- The precondition read back element by element: at every index of the logits the absolute value compares below `+∞`,
    and at every index of the labels the word compares at least `0` and below `32000`, both signed. -/
private theorem elementwise_of_pre (x : FVec Ideal S4096x32000 .f32) (t : IVec S4096 32)
    (h : Cert.Pre_finite_inputs.fn (F := Ideal) x t = fun _ => 1#1) :
    (∀ i : S4096x32000.Idx, Ideal.cmp .olt (max (x i : EReal) (-(x i : EReal))) (Ideal.ofBits .f32 0x7F800000#32) = 1#1)
      ∧ ∀ j : S4096.Idx, IntOp.cmpi .sge (t j) 0#32 = 1#1 ∧ IntOp.cmpi .slt (t j) 32000#32 = 1#1 := by
  have h0 := congrFun h ValueIdx.ix0
  dsimp only [Cert.Pre_finite_inputs.fn] at h0
  obtain ⟨hx, ht⟩ := IntOp.andi_eq_one.1 h0
  refine ⟨fun i => ?_, fun j => ?_⟩
  · exact Host.reduce_andi_all _ _ _ _ _ hx i
  · exact IntOp.andi_eq_one.1 (Host.reduce_andi_all _ _ _ _ _ ht j)

/-- Under the precondition every logit is a real number. -/
theorem real_of_pre (x : FVec Ideal S4096x32000 .f32) (t : IVec S4096 32)
    (h : Cert.Pre_finite_inputs.fn (F := Ideal) x t = fun _ => 1#1) (i : S4096x32000.Idx) :
    ∃ r : ℝ, (x i : EReal) = (r : EReal) := by
  have hi := (elementwise_of_pre x t h).1 i
  rw [ofBits_inf] at hi
  have hlt : max (x i : EReal) (-(x i : EReal)) < ⊤ := by
    unfold Ideal.cmp at hi
    by_contra hn
    simp [hn] at hi
  obtain ⟨h1, h2⟩ := max_lt_iff.1 hlt
  induction hx : (x i : EReal) using EReal.rec with
  | bot => rw [hx] at h2; simp at h2
  | top => rw [hx] at h1; simp at h1
  | coe r => exact ⟨r, rfl⟩

/-- Under the precondition every label is the number of a column: as a word, below 32000. -/
theorem range_of_pre (x : FVec Ideal S4096x32000 .f32) (t : IVec S4096 32)
    (h : Cert.Pre_finite_inputs.fn (F := Ideal) x t = fun _ => 1#1) (r : Fin 4096) :
    (t (ix1 r)).toNat < 32000 := by
  obtain ⟨hge, hlt⟩ := (elementwise_of_pre x t h).2 (ix1 r)
  rw [IntOp.cmpi_sge, show (0#32 : BitVec 32).toInt = 0 from by decide] at hge
  rw [IntOp.cmpi_slt, show (32000#32 : BitVec 32).toInt = 32000 from by decide] at hlt
  have hn : 2 * (t (ix1 r)).toNat < 2 ^ 32 := BitVec.toInt_pos_iff.1 hge
  rw [BitVec.toInt_eq_toNat_of_lt hn] at hlt
  omega

end Cert.CrossEntropy.Pre

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.KernelRow.lean ====
/-
  The kernel body's stored value at a row: the weighted negative log-probability of the row's label.
-/
import proofs.«417755_j57767310131345_3_alg».proof.Proof.Gen.KernelIdeal.Skeleton
import proofs.«417755_j57767310131345_3_alg».proof.Proof.Spec
import proofs.«417755_j57767310131345_3_alg».proof.Proof.LibColumns
import Idealize.ShloMosaic.PureOps.Ideal.Laws
import Idealize.ShloMosaic.Lib.ValueIdx
import Idealize.ShloMosaic.Lib.Pipeline.Value

noncomputable section

namespace Cert.CrossEntropy.KernelRow

open Idealize.ShloMosaic Idealize.ShloMosaic.ValueIdx Cert.KernelIdeal Cert.KernelIdeal.Gen

/-- The index a reduction over the second axis inserts at row `p`, column `k`. -/
private theorem lift_row (h : S128x32000.Reduces [1] S128) (p : Fin 128) (k : Fin 32000) :
    h.lift (ix1 p) k = ix2 p k :=
  funext fun a => Fin.ext (by match a with | ⟨0, _⟩ => rfl | ⟨1, _⟩ => rfl)

/-- The f32 word of `-∞` is `⊥`. -/
private theorem ofBits_neg_inf : Ideal.ofBits .f32 0xFF800000#32 = ⊥ := by simp [Ideal.ofBits, Ideal.ieee]

/-- A sum along the rows, read at row `p`: the sum of the row's entries. -/
private theorem row_sum (src : FVec Ideal S128x32000 .f32) (h : S128x32000.Reduces [1] S128) (hφ : FKind.Formats .f32)
    (hacc : (0x00000000#32 : BitVec 32) = FKind.add.neutral .f32 hφ) (p : Fin 128) :
    multiReduction (F := Ideal) .add [1] S128 src 0x00000000#32 h hφ hacc (ix1 p) = ∑ k : Fin 32000, src (ix2 p k) := by
  refine (Ideal.multiReduction_add_single src _ h hφ hacc (ix1 p)).trans ?_
  exact Finset.sum_congr rfl fun k _ => congrArg src (lift_row h p k)

/-- A maximum along the rows from `-∞`, read at row `p`: the row's largest entry. -/
private theorem row_max (src : FVec Ideal S128x32000 .f32) (h : S128x32000.Reduces [1] S128) (hφ : FKind.Formats .f32)
    (hacc : (0xFF800000#32 : BitVec 32) = FKind.maximumf.neutral .f32 hφ) (p : Fin 128) :
    multiReduction (F := Ideal) .maximumf [1] S128 src 0xFF800000#32 h hφ hacc (ix1 p) = rowMax fun k => src (ix2 p k) := by
  refine (Ideal.multiReduction_maximumf_single src _ h hφ hacc (ix1 p)).trans ?_
  unfold rowMax
  rw [Ideal.ofBits_def, ofBits_neg_inf]
  exact Finset.fold_congr fun k _ => congrArg src (lift_row h p k)

/-- A select on "the words are equal" is the `if` on the equation. -/
private theorem select_cmpi_eq {α : Type} (a t : BitVec 32) (v w : α) :
    Scalar.select (IntOp.cmpi .eq a t) v w = if a = t then v else w := by
  by_cases h : a = t
  · subst h; simp [Scalar.select, IntOp.cmpi]
  · have hb : (a == t) = false := beq_eq_false_iff_ne.mpr h
    simp [Scalar.select, IntOp.cmpi, hb, h]

/-- A select on "the words differ" is the `if` on the equation, the branches exchanged. -/
private theorem select_cmpi_ne {α : Type} (a t : BitVec 32) (v w : α) :
    Scalar.select (IntOp.cmpi .ne a t) v w = if a = t then w else v := by
  by_cases h : a = t
  · subst h; simp [Scalar.select, IntOp.cmpi]
  · have hb : (a == t) = false := beq_eq_false_iff_ne.mpr h
    simp [Scalar.select, IntOp.cmpi, bne, hb, h]

/-- An exponential of an array, read at an index. -/
private theorem exp_apply {s : Shape} (a : FVec Ideal s .f32) (i : s.Idx) : exp a i = Ideal.exp (a i) := rfl

/-- A logarithm of an array, read at an index. -/
private theorem log_apply {s : Shape} (a : FVec Ideal s .f32) (i : s.Idx) : log a i = Ideal.log (a i) := rfl

/-- A column cast to its own shape reads the same entry. -/
private theorem cast_self {α : Type} (x : S128x1.Idx → α) (h : S128x1.ShapeCasts S128x1) (i : S128x1.Idx) :
    shapeCast S128x1 x h i = x i :=
  shapeCast_apply x h i i rfl

/-- The kept row maximum, as a column: at `(p, u)` it is the row's largest entry. -/
private theorem max_stage (x0 : FVec Ideal S128x32000 .f32) (hr : S128x32000.Reduces [1] S128) (hc : S128.ShapeCasts S128x1)
    (hφ : FKind.Formats .f32) (hacc : (0xFF800000#32 : BitVec 32) = FKind.maximumf.neutral .f32 hφ) (p : Fin 128) (u : Fin 1) :
    shapeCast S128x1 (multiReduction (F := Ideal) .maximumf [1] S128 x0 0xFF800000#32 hr hφ hacc) hc (ix2 p u)
      = rowMax fun k => x0 (ix2 p k) := by
  rw [Cert.Columns.shapeCast_a_a1_apply, row_max]

/-- The row minus a column broadcast along it: at `(p, k)` the entry minus the column's entry at `p`. -/
private theorem shifted_stage (x0 : FVec Ideal S128x32000 .f32) (M : FVec Ideal S128x1 .f32) (hb : S128x1.Broadcasts S128x32000)
    (p : Fin 128) (k : Fin 32000) :
    subf x0 (broadcastTo S128x32000 M hb) (ix2 p k) = x0 (ix2 p k) - M (ix2 p (0 : Fin 1)) := by
  rw [subf_apply, Cert.Columns.broadcastTo_a1_ab_apply]

/-- The logarithm of the kept row sum of the exponentials of the shifted row: at `(p, 0)` the row's `rowLogSum`. -/
private theorem logsum_stage (x0 : FVec Ideal S128x32000 .f32) (hr : S128x32000.Reduces [1] S128) (hc : S128.ShapeCasts S128x1)
    (hb : S128x1.Broadcasts S128x32000) (hφ : FKind.Formats .f32)
    (haccM : (0xFF800000#32 : BitVec 32) = FKind.maximumf.neutral .f32 hφ)
    (haccA : (0x00000000#32 : BitVec 32) = FKind.add.neutral .f32 hφ) (p : Fin 128) :
    log (shapeCast S128x1 (multiReduction (F := Ideal) .add [1] S128
        (exp (subf x0 (broadcastTo S128x32000
          (shapeCast S128x1 (multiReduction (F := Ideal) .maximumf [1] S128 x0 0xFF800000#32 hr hφ haccM) hc) hb)))
        0x00000000#32 hr hφ haccA) hc) (ix2 p (0 : Fin 1))
      = rowLogSum fun k => x0 (ix2 p k) := by
  rw [log_apply, Cert.Columns.shapeCast_a_a1_apply, row_sum]
  unfold rowLogSum
  refine congrArg Ideal.log (Finset.sum_congr rfl fun k _ => ?_)
  rw [exp_apply, shifted_stage, max_stage]

/-- The kept row sum of the row masked by "the column's number is the label": at `(p, 0)` the row's entry at the label. -/
private theorem picked_stage (x0 : FVec Ideal S128x32000 .f32) (x1 : IVec S128x1 32) (hr : S128x32000.Reduces [1] S128)
    (hc : S128.ShapeCasts S128x1) (hb : S128x1.Broadcasts S128x32000) (hi : S128x32000.Iotas .tc 32 [1])
    (hcc : S128x1.ShapeCasts S128x1) (hφ : FKind.Formats .f32)
    (hacc : (0x00000000#32 : BitVec 32) = FKind.add.neutral .f32 hφ) (p : Fin 128)
    (ht : (x1 (ix2 p (0 : Fin 1))).toNat < 32000) :
    shapeCast S128x1 (multiReduction (F := Ideal) .add [1] S128
        (select (cmpi .eq (iota .tc S128x32000 32 [1] hi) (broadcastTo S128x32000 (shapeCast S128x1 x1 hcc) hb)) x0
          (broadcast S128x32000 (Scalar.ofBits (F := Ideal) .f32 0x00000000#32)))
        0x00000000#32 hr hφ hacc) hc (ix2 p (0 : Fin 1))
      = x0 (ix2 p (col (x1 (ix2 p (0 : Fin 1))))) := by
  rw [Cert.Columns.shapeCast_a_a1_apply, row_sum]
  refine Eq.trans (Finset.sum_congr rfl fun k _ => ?_) (sum_mask_eq (fun k => x0 (ix2 p k)) (x1 (ix2 p (0 : Fin 1))) ht)
  rw [select_apply, broadcast_apply]
  show Scalar.select (IntOp.cmpi .eq (iota .tc S128x32000 32 [1] hi (ix2 p k))
    (broadcastTo S128x32000 (shapeCast S128x1 x1 hcc) hb (ix2 p k))) _ _ = _
  rw [iota_single_apply, Cert.Columns.broadcastTo_a1_ab_apply, cast_self, select_cmpi_eq, Ideal.ofBits_def,
    Ideal.ofBits_zero_f32]

/-- The weight column: at `(p, 0)` the label's weight. -/
private theorem weight_stage (x1 : IVec S128x1 32) (hcc : S128x1.ShapeCasts S128x1) (p : Fin 128) :
    select (cmpi .ne (shapeCast S128x1 x1 hcc) (broadcast S128x1 0#32))
        (broadcast S128x1 (Scalar.ofBits (F := Ideal) .f32 0x3FC00000#32))
        (broadcast S128x1 (Scalar.ofBits (F := Ideal) .f32 0x3F800000#32)) (ix2 p (0 : Fin 1))
      = weight (x1 (ix2 p (0 : Fin 1))) := by
  rw [select_apply, broadcast_apply, broadcast_apply]
  show Scalar.select (IntOp.cmpi .ne (shapeCast S128x1 x1 hcc (ix2 p (0 : Fin 1))) 0#32) _ _ = _
  rw [cast_self, select_cmpi_ne]
  rfl

/-- The body's stored column as one term: `0 − ((picked − (max + logsum)) · weight)`. -/
private theorem pay_form (x0 : FVec Ideal S128x32000 .f32) (x1 : IVec S128x1 32) :
    k0_pay1 (F := Ideal) x0 x1
      = subf (broadcast S128x1 (Scalar.ofBits (F := Ideal) .f32 0x00000000#32))
          (mulf
            (subf
              (shapeCast S128x1 (multiReduction (F := Ideal) .add [1] S128
                (select (cmpi .eq (iota .tc S128x32000 32 [1] iota_S128x32000_d1_w32)
                    (broadcastTo S128x32000 (shapeCast S128x1 x1 shapeCasts_S128x1_S128x1) broadcasts_S128x1_S128x32000)) x0
                  (broadcast S128x32000 (Scalar.ofBits (F := Ideal) .f32 0x00000000#32)))
                0x00000000#32 reduces_S128x32000_S128 (.inl rfl) rfl) shapeCasts_S128_S128x1)
              (addf
                (shapeCast S128x1 (multiReduction (F := Ideal) .maximumf [1] S128 x0 0xFF800000#32 reduces_S128x32000_S128 (.inl rfl) rfl)
                  shapeCasts_S128_S128x1)
                (log (shapeCast S128x1 (multiReduction (F := Ideal) .add [1] S128
                  (exp (subf x0 (broadcastTo S128x32000
                    (shapeCast S128x1 (multiReduction (F := Ideal) .maximumf [1] S128 x0 0xFF800000#32 reduces_S128x32000_S128 (.inl rfl) rfl)
                      shapeCasts_S128_S128x1) broadcasts_S128x1_S128x32000)))
                  0x00000000#32 reduces_S128x32000_S128 (.inl rfl) rfl) shapeCasts_S128_S128x1))))
            (select (cmpi .ne (shapeCast S128x1 x1 shapeCasts_S128x1_S128x1) (broadcast S128x1 0#32))
              (broadcast S128x1 (Scalar.ofBits (F := Ideal) .f32 0x3FC00000#32))
              (broadcast S128x1 (Scalar.ofBits (F := Ideal) .f32 0x3F800000#32)))) :=
  rfl

/-- The same over a block read as an array of extended reals and a column of label words. -/
private theorem pay_row_aux (x0 : FVec Ideal S128x32000 .f32) (x1 : IVec S128x1 32) (p : Fin 128)
    (hx : ∀ k : Fin 32000, ∃ r : ℝ, (x0 (ix2 p k) : EReal) = (r : EReal))
    (ht : (x1 (ix2 p (0 : Fin 1))).toNat < 32000) :
    k0_pay1 (F := Ideal) x0 x1 (ix2 p (0 : Fin 1))
      = Cert.CrossEntropy.rowLoss (fun k => x0 (ix2 p k)) (x1 (ix2 p (0 : Fin 1))) := by
  rw [pay_form, subf_apply, broadcast_apply, mulf_apply, subf_apply, addf_apply,
    picked_stage x0 x1 reduces_S128x32000_S128 shapeCasts_S128_S128x1 broadcasts_S128x1_S128x32000 iota_S128x32000_d1_w32
      shapeCasts_S128x1_S128x1 (.inl rfl) rfl p ht,
    max_stage x0 reduces_S128x32000_S128 shapeCasts_S128_S128x1 (.inl rfl) rfl p 0,
    logsum_stage x0 reduces_S128x32000_S128 shapeCasts_S128_S128x1 broadcasts_S128x1_S128x32000 (.inl rfl) rfl rfl p,
    weight_stage x1 shapeCasts_S128x1_S128x1 p, Ideal.ofBits_def, Ideal.ofBits_zero_f32, zero_sub]
  obtain ⟨m, hm⟩ := rowMax_real (fun k => x0 (ix2 p k)) hx
  obtain ⟨a, ha⟩ := hx (col (x1 (ix2 p (0 : Fin 1))))
  show _ = -((((x0 (ix2 p (col (x1 (ix2 p (0 : Fin 1))))) : EReal) - rowMax fun k => x0 (ix2 p k))
    - rowLogSum fun k => x0 (ix2 p k)) * weight (x1 (ix2 p (0 : Fin 1))))
  rw [ha, hm, sub_add_eq_sub_sub_of_real]

/-- At row `p` of a block of 128 rows whose logits are real and whose label is a column number, the value the body
    stores is the row's loss. -/
theorem pay_row (x0 : Vec Ideal S128x32000 .f32) (x1 : Vec Ideal S128x1 .i32) (p : Fin 128)
    (hx : ∀ k : Fin 32000, ∃ r : ℝ, (x0 (ix2 p k) : EReal) = (r : EReal))
    (ht : (x1 (ix2 p (0 : Fin 1))).toNat < 32000) :
    k0_pay1 (F := Ideal) x0 x1 (ix2 p (0 : Fin 1))
      = Cert.CrossEntropy.rowLoss (fun k => x0 (ix2 p k)) (x1 (ix2 p (0 : Fin 1))) := by
  exact pay_row_aux x0 x1 p hx ht

end Cert.CrossEntropy.KernelRow

end
-- ==== Proof.KernelArray.lean ====
/-
  The kernel's run, read: the result is the mean of the row losses.

  The region's output array has one entry per row. Point `t` of the 32 reads rows `128 t … 128 t + 127` of the logits
  and of the labels (the labels reshaped to a column beforehand) and writes the same rows of the output; at each row
  the stored value is that row's loss. The 32 blocks tile the 4096 rows, so after the region the array is the column
  of row losses; the operations after the region sum the column and divide by 4096.
-/
import proofs.«417755_j57767310131345_3_alg».proof.Proof.Gen.KernelIdeal.Frame
import proofs.«417755_j57767310131345_3_alg».proof.Proof.KernelRow
import proofs.«417755_j57767310131345_3_alg».proof.Proof.Spec
import proofs.«417755_j57767310131345_3_alg».proof.Proof.LibColumns
import Idealize.ShloMosaic.Lib.Pipeline.Value
import Idealize.ShloMosaic.Lib.StableHlo.Run
import Idealize.ShloMosaic.PureOps.Ideal.Laws
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The row an index of the output column lies in. -/
abbrev rowOf (i : S4096x1.Idx) : Fin 4096 := ⟨(i 0).val, (i 0).isLt⟩

/-- The column of row losses, from the logits and the column of labels. -/
def lossCol (x : S4096x32000.Idx → EReal) (tl : S4096x1.Idx → BitVec 32) : S4096x1.Idx → EReal :=
  fun i => Cert.CrossEntropy.rowLoss (fun k => x (ix2 (rowOf i) k)) (tl (ix2 (rowOf i) (0 : Fin 1)))

/-- The printed index maps over the grid: every window's block index is the point's number on the row axis and 0 on
    the other. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 32 := lt_of_lt_of_eq t.isLt N_0

/-- The logits' block at point `t` is rows `128 t …` of the logits. -/
theorem iblk0_apply (c : Dev nD) (t : Fin cfg0.N) (p : Fin 128) (k : Fin 32000) (r : Fin 4096) (hr : r.val = 128 * t.val + p.val) :
    (iblk m c 0 t : Vec Ideal S128x32000 .f32) (ix2 p k) = (V m c main_arg0 : S4096x32000.Idx → EReal) (ix2 r k) := by
  obtain ⟨e0, e1, -, -, -, -⟩ := idx_facts t
  unfold iblk
  rw [View.read_apply]
  show V m c main_arg0 _ = V m c main_arg0 _
  congr 1
  funext a
  apply Fin.ext
  match a with
  | ⟨0, _⟩ => show win0_0.index t 0 * 128 + 1 * p.val = r.val; rw [e0, hr]; omega
  | ⟨1, _⟩ => show win0_0.index t 1 * 32000 + 1 * k.val = k.val; rw [e1]; omega

/-- The labels' block at point `t` is rows `128 t …` of the label column. -/
theorem iblk1_apply (c : Dev nD) (t : Fin cfg0.N) (p : Fin 128) (r : Fin 4096) (hr : r.val = 128 * t.val + p.val) :
    (iblk m c 1 t : Vec Ideal S128x1 .i32) (ix2 p (0 : Fin 1)) = (V m c main_v0 : S4096x1.Idx → BitVec 32) (ix2 r (0 : Fin 1)) := by
  obtain ⟨-, -, e2, e3, -, -⟩ := idx_facts t
  unfold iblk
  rw [View.read_apply]
  show V m c main_v0 _ = V m c main_v0 _
  congr 1
  funext a
  apply Fin.ext
  match a with
  | ⟨0, _⟩ => show win0_1.index t 0 * 128 + 1 * p.val = r.val; rw [e2, hr]; omega
  | ⟨1, _⟩ => show win0_1.index t 1 * 1 + 1 * 0 = 0; rw [e3]

/-- WHAT POINT `t` WRITES BACK is block `t` of the column of row losses, when the logits are real and the labels are
    column numbers. -/
theorem flushed_eq (c : Dev nD)
    (hreal : ∀ i : S4096x32000.Idx, ∃ r : ℝ, ((V m c main_arg0 : S4096x32000.Idx → EReal) i) = (r : EReal))
    (hrange : ∀ i : S4096x1.Idx, ((V m c main_v0 : S4096x1.Idx → BitVec 32) i).toNat < 32000) (t : Fin cfg0.N) :
    (dats m 0 c).flushed 2 t = ((cfg0.win 2).blk t).view.read (Elt Ideal) (lossCol (V m c main_arg0) (V m c main_v0)) := by
  show (cfg0.win 2).cut (grid0.coords t) ((dats m 0 c).after 2 t) = _
  rw [after0_2]
  unfold out0_2
  rw [View.canon_unit_zero hz]
  simp only [View.ld_unit_zero (S := S128x32000) hz, View.ld_unit_zero (S := S128x1) hz]
  funext j
  obtain ⟨p, q, rfl⟩ : ∃ (p : Fin 128) (q : Fin 1), j = ix2 p q := ⟨j 0, j 1, eq_ix2 j⟩
  obtain rfl : q = 0 := Subsingleton.elim _ _
  obtain ⟨-, -, -, -, e4, e5⟩ := idx_facts t
  have ht := t_lt t
  have hrow : 128 * t.val + p.val < 4096 := by have := p.isLt; omega
  rw [View.read_apply]
  show k0_pay1 (F := Ideal) (iblk m c 0 t) (iblk m c 1 t) (ix2 p (0 : Fin 1)) = _
  refine (Cert.CrossEntropy.KernelRow.pay_row (iblk m c 0 t) (iblk m c 1 t) p (fun k => ?_) ?_).trans ?_
  · rw [iblk0_apply m c t p k ⟨128 * t.val + p.val, hrow⟩ rfl]
    exact hreal _
  · rw [iblk1_apply m c t p ⟨128 * t.val + p.val, hrow⟩ rfl]
    exact hrange _
  · unfold lossCol
    have hi : rowOf (((cfg0.win 2).blk t).view.emb (ix2 p (0 : Fin 1))) = ⟨128 * t.val + p.val, hrow⟩ := by
      apply Fin.ext
      show win0_2.index t 0 * 128 + 1 * p.val = 128 * t.val + p.val
      rw [e4]; omega
    show Cert.CrossEntropy.rowLoss _ _ = Cert.CrossEntropy.rowLoss
      (fun k => (V m c main_arg0 : S4096x32000.Idx → EReal) (ix2 (rowOf (((cfg0.win 2).blk t).view.emb (ix2 p (0 : Fin 1)))) k))
      ((V m c main_v0 : S4096x1.Idx → BitVec 32) (ix2 (rowOf (((cfg0.win 2).blk t).view.emb (ix2 p (0 : Fin 1)))) (0 : Fin 1)))
    rw [hi]
    congr 1
    · funext k
      exact iblk0_apply m c t p k _ rfl
    · exact iblk1_apply m c t p _ rfl

/-- An index of the output column is in point `t`'s block iff each coordinate is in the block's range on its axis. -/
theorem mem_blk (t : Fin cfg0.N) (i : S4096x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v1).slice (win0_2.rect t)).set ↔ _
  rw [View.set_slice_whole, Rect.mem_set_unit]
  exact Iff.rfl

/-- Every row is in some point's block: row `r` in that of point `r / 128`. -/
theorem cover (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 32 := N_0
  have hq : (i 0).val / 128 < cfg0.N := by rw [hN]; omega
  refine ⟨⟨(i 0).val / 128, hq⟩, flush0_2 _, ?_⟩
  rw [mem_blk]
  obtain ⟨-, -, -, -, e4, e5⟩ := idx_facts ⟨(i 0).val / 128, hq⟩
  intro a
  match a with
  | ⟨0, _⟩ =>
    show win0_2.index ⟨(i 0).val / 128, hq⟩ 0 * 128 ≤ (i 0).val ∧ (i 0).val < win0_2.index ⟨(i 0).val / 128, hq⟩ 0 * 128 + 128
    rw [e4]
    show (i 0).val / 128 * 128 ≤ (i 0).val ∧ (i 0).val < (i 0).val / 128 * 128 + 128
    omega
  | ⟨1, _⟩ =>
    show win0_2.index ⟨(i 0).val / 128, hq⟩ 1 * 1 ≤ (i 1).val ∧ (i 1).val < win0_2.index ⟨(i 0).val / 128, hq⟩ 1 * 1 + 1
    rw [e5]
    omega

/-- THE ARRAY after the region: the column of row losses. -/
theorem final (c : Dev nD)
    (hreal : ∀ i : S4096x32000.Idx, ∃ r : ℝ, ((V m c main_arg0 : S4096x32000.Idx → EReal) i) = (r : EReal))
    (hrange : ∀ i : S4096x1.Idx, ((V m c main_v0 : S4096x1.Idx → BitVec 32) i).toNat < 32000) :
    (dats m 0 c).arrAt 2 cfg0.N = lossCol (V m c main_arg0) (V m c main_v0) :=
  (dats m 0 c).arrAt_eq_of_cover 2 (lossCol (V m c main_arg0) (V m c main_v0)) (fun t _ => flushed_eq m c hreal hrange t) cover

/-- The label column as the region finds it: the labels reshaped. -/
theorem V_labels (c : Dev nD) :
    (V m c main_v0 : S4096x1.Idx → BitVec 32) = shapeCast S4096x1 (m ((c : Thread nD τ).loc main_arg1)) shapeCasts_S4096_S4096x1 := by
  show StableHlo.after hostOps0 (fun b => m (c, b)) (Proc.devRef .tc main_v0) = _
  after_results
  funext i
  rfl

/-- The label column at row `r` is the label of row `r`. -/
theorem V_labels_apply (c : Dev nD) (r : Fin 4096) :
    (V m c main_v0 : S4096x1.Idx → BitVec 32) (ix2 r (0 : Fin 1)) = (m ((c : Thread nD τ).loc main_arg1) : S4096.Idx → BitVec 32) (ix1 r) := by
  rw [V_labels]
  exact Cert.Columns.shapeCast_a_a1_apply _ _ r 0

/-- The operations after the region leave, in the result buffer, the region's output array summed over both axes and
    divided by the word `4096.0`. -/
theorem tail_eq (c : Dev nD) :
    Pipeline.afterTail₀ cfgs (dats m) 0 (V0 m) [hostOps1] c main_v3
      = Host.divf (Host.reduceAdd ((dats m 0 c).arrAt 2 cfg0.N) (constant (F := Ideal) S_ .f32 0x00000000#32) reducesTo_S4096x1_S_d0_1 h_S_)
          (constant (F := Ideal) S_ .f32 0x45800000#32) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v1)
      = (dats m 0 c).arrAt 2 cfg0.N from Pipeline.withArrays_arr spec0 launch0.win.arr_inj c _ _ 2]

/-- The column of row losses summed over both axes and divided by the word `4096.0` is the mean loss, when the column
    of labels is the labels as a column. -/
theorem mean_eq (x : S4096x32000.Idx → EReal) (tl : S4096x1.Idx → BitVec 32) (t : S4096.Idx → BitVec 32)
    (htl : ∀ r : Fin 4096, tl (ix2 r (0 : Fin 1)) = t (ix1 r)) (i : S_.Idx) :
    Host.divf (Host.reduceAdd (F := Ideal) (lossCol x tl) (constant (F := Ideal) S_ .f32 0x00000000#32) reducesTo_S4096x1_S_d0_1 h_S_)
      (constant (F := Ideal) S_ .f32 0x45800000#32) i = Cert.CrossEntropy.meanLoss x t := by
  unfold Cert.CrossEntropy.meanLoss
  show FloatOps.hostDivf (Host.reduceAdd (F := Ideal) (lossCol x tl) (constant (F := Ideal) S_ .f32 0x00000000#32) reducesTo_S4096x1_S_d0_1 h_S_ i)
    (Ideal.ofBits .f32 0x45800000#32) = _
  rw [Ideal.hostDivf_def]
  congr 1
  simp only [Host.reduceAdd, Ideal.hostReduceAdd_def]
  rw [Ideal.hostReduceAdd_total reducesTo_S4096x1_S_d0_1 (fun b => b.elim0)]
  show Ideal.ofBits .f32 0x00000000#32 + _ = _
  rw [Ideal.ofBits_zero_f32, zero_add, sum_idx2]
  refine Finset.sum_congr rfl fun r _ => ?_
  rw [Fin.sum_univ_one]
  show Cert.CrossEntropy.rowLoss (fun k => x (ix2 r k)) (tl (ix2 r (0 : Fin 1))) = _
  rw [htl r]

/-- THE RUN, READ: every weakly fair execution of the kernel's program ends with its result at the mean loss of the two
    arguments, and the arguments unchanged — when the logits are real and the labels are column numbers. -/
theorem run
    (hreal : ∀ (c : Dev nD) (i : S4096x32000.Idx), ∃ r : ℝ, ((m ((c : Thread nD τ).loc main_arg0) : S4096x32000.Idx → EReal) i) = (r : EReal))
    (hrange : ∀ (c : Dev nD) (r : Fin 4096), ((m ((c : Thread nD τ).loc main_arg1) : S4096.Idx → BitVec 32) (ix1 r)).toNat < 32000) :
    θ_run defs (onTc (τ := τ) (main (F := Ideal))) ⟨m, fun _ => 0, ρ⟩ fun r => ∀ c : Dev nD,
      r.2.mem ((c : Thread nD τ).loc main_v3)
          = (fun _ => Cert.CrossEntropy.meanLoss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_, ?_⟩) (run_main m ρ)
  · refine ((h c).2 main_v3 (Pipeline.mem_restRefs_of main_v3 (by decide) (by decide))).trans ?_
    rw [tail_eq, final m c (fun i => by rw [V_main_arg0]; exact hreal c i) (fun i => ?_)]
    · funext j
      rw [V_main_arg0]
      exact mean_eq _ _ _ (fun r => V_labels_apply m c r) j
    · obtain ⟨p, q, rfl⟩ : ∃ (p : Fin 4096) (q : Fin 1), i = ix2 p q := ⟨i 0, i 1, eq_ix2 i⟩
      obtain rfl : q = 0 := Subsingleton.elim _ _
      rw [V_labels_apply]
      exact hrange c p
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

end Cert.KernelIdeal.Hand

end
-- ==== Proof.RefStages.lean ====
/-
  The reference's run, read over stages.

  The program's 53 operations are cut into eight stretches — the row maximum reduced from −∞; its join with −∞; the
  maximum as a column; the column broadcast over the row; the rest of the log-softmax; the label index wrapped into
  range and reshaped; the range test, the gather and the reshape of the picked column; the weight and the mean — and
  the contents after the whole list are the contents after each stretch from those after the one before. After each
  stretch the buffers the later ones read hold the stage functions of the two arguments (a reshape's result is
  compared index by index), and the result buffer ends holding the last stage.
-/
import proofs.«417755_j57767310131345_3_alg».proof.Proof.RefRead
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The contents after a list of operations followed by another are those after the second from those after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Operations 1–2: the row maximum, reduced from −∞. -/
abbrev ops1 : List (HloOp τ sig (Elt F)) := (ops (F := F)).take 2
/-- Operations 3–5: the maximum joined with −∞ once more. -/
abbrev ops2 : List (HloOp τ sig (Elt F)) := ((ops (F := F)).drop 2).take 3
/-- Operation 6: the row maximum as a column. -/
abbrev ops3 : List (HloOp τ sig (Elt F)) := (((ops (F := F)).drop 2).drop 3).take 1
/-- Operation 7: the column broadcast over the row. -/
abbrev ops4 : List (HloOp τ sig (Elt F)) := ((((ops (F := F)).drop 2).drop 3).drop 1).take 1
/-- Operations 8–15: the shifted logits, their exponentials' row sum, its logarithm, the log-softmax. -/
abbrev ops5 : List (HloOp τ sig (Elt F)) := (((((ops (F := F)).drop 2).drop 3).drop 1).drop 1).take 8
/-- Operations 16–24: the label index wrapped into range and reshaped. -/
abbrev ops6 : List (HloOp τ sig (Elt F)) := ((((((ops (F := F)).drop 2).drop 3).drop 1).drop 1).drop 8).take 9
/-- Operations 25–39: the range test, the gather, the fill, and the picked column reshaped to a vector. -/
abbrev ops7 : List (HloOp τ sig (Elt F)) := (((((((ops (F := F)).drop 2).drop 3).drop 1).drop 1).drop 8).drop 9).take 15
/-- Operations 40–53: the weight, the product, the negation, the sum and the quotient. -/
abbrev ops8 : List (HloOp τ sig (Elt F)) := ((((((((ops (F := F)).drop 2).drop 3).drop 1).drop 1).drop 8).drop 9).drop 15)

theorem after_ops (V : Valuation τ sig (Elt F)) :
    after (ops (F := F)) V = after ops8 (after ops7 (after ops6 (after ops5 (after ops4 (after ops3 (after ops2 (after ops1 V))))))) := by
  rw [← after_append, ← after_append, ← after_append, ← after_append, ← after_append, ← after_append, ← after_append,
    List.take_append_drop, List.take_append_drop, List.take_append_drop, List.take_append_drop, List.take_append_drop, List.take_append_drop, List.take_append_drop]

variable (m : (ℓ : Loc nD τ sig) → Buf (Elt F) ℓ) (c : Dev nD)

/-! ## The row maximum, reduced from −∞ -/

set_option maxRecDepth 8192 in
/-- The reduce's operands reach it through the identity transports of its buffers' types, which are removed one by
    one; what is left is the stage's own term. -/
theorem st1_v0 : after (ops1 (F := F)) (launchContents m c) (Proc.devRef .tc main_call0_v0)
    = val_main_call0_v0 (F := F) (m ((c.tc : Thread nD τ).loc main_arg0)) := by
  simp only [ops1, ops, List.drop_succ_cons, List.drop_zero, List.take_succ_cons, List.take_zero]
  after_results_simp
  unfold val_main_call0_v0 val_main_call0_cst
  unfold TRef.toBuf TRef.ofBuf
  rw [cast_eq, cast_eq, cast_eq, cast_eq]

set_option maxRecDepth 8192 in
theorem st1_arg0 : after (ops1 (F := F)) (launchContents m c) (Proc.devRef .tc main_arg0) = m ((c.tc : Thread nD τ).loc main_arg0) := by
  simp only [ops1, ops, List.drop_succ_cons, List.drop_zero, List.take_succ_cons, List.take_zero]
  after_results_simp <;> rfl

set_option maxRecDepth 8192 in
theorem st1_arg1 : after (ops1 (F := F)) (launchContents m c) (Proc.devRef .tc main_arg1) = m ((c.tc : Thread nD τ).loc main_arg1) := by
  simp only [ops1, ops, List.drop_succ_cons, List.drop_zero, List.take_succ_cons, List.take_zero]
  after_results_simp <;> rfl

/-! ## Its join with −∞ -/

set_option maxRecDepth 8192 in
theorem st2_v2 : after (ops2 (F := F)) (after (ops1 (F := F)) (launchContents m c)) (Proc.devRef .tc main_call0_v2)
    = val_main_call0_v2 (F := F) (m ((c.tc : Thread nD τ).loc main_arg0)) := by
  have h0 := st1_v0 m c
  generalize after (ops1 (F := F)) (launchContents m c) = W at h0 ⊢
  simp only [ops2, ops, List.drop_succ_cons, List.drop_zero, List.take_succ_cons, List.take_zero]
  after_results_simp
  rw [h0]
  unfold val_main_call0_v2 val_main_call0_v1 val_main_call0_cst_0
  unfold TRef.toBuf TRef.ofBuf
  repeat rw [cast_eq]

set_option maxRecDepth 8192 in
theorem st2_arg0 : after (ops2 (F := F)) (after (ops1 (F := F)) (launchContents m c)) (Proc.devRef .tc main_arg0) = m ((c.tc : Thread nD τ).loc main_arg0) := by
  have h1 := st1_arg0 m c
  generalize after (ops1 (F := F)) (launchContents m c) = W at h1 ⊢
  simp only [ops2, ops, List.drop_succ_cons, List.drop_zero, List.take_succ_cons, List.take_zero]
  after_results_simp
  exact h1

set_option maxRecDepth 8192 in
theorem st2_arg1 : after (ops2 (F := F)) (after (ops1 (F := F)) (launchContents m c)) (Proc.devRef .tc main_arg1) = m ((c.tc : Thread nD τ).loc main_arg1) := by
  have h1 := st1_arg1 m c
  generalize after (ops1 (F := F)) (launchContents m c) = W at h1 ⊢
  simp only [ops2, ops, List.drop_succ_cons, List.drop_zero, List.take_succ_cons, List.take_zero]
  after_results_simp
  exact h1

/-! ## The maximum as a column -/

set_option maxRecDepth 8192 in
theorem st3_v3 : after (ops3 (F := F)) (after (ops2 (F := F)) (after (ops1 (F := F)) (launchContents m c))) (Proc.devRef .tc main_call0_v3)
    = val_main_call0_v3 (F := F) (m ((c.tc : Thread nD τ).loc main_arg0)) := by
  have h2 := st2_v2 m c
  generalize after (ops2 (F := F)) (after (ops1 (F := F)) (launchContents m c)) = W at h2 ⊢
  simp only [ops3, ops, List.drop_succ_cons, List.drop_zero, List.take_succ_cons, List.take_zero]
  after_results_simp
  rw [h2]
  rfl

set_option maxRecDepth 8192 in
theorem st3_arg0 : after (ops3 (F := F)) (after (ops2 (F := F)) (after (ops1 (F := F)) (launchContents m c))) (Proc.devRef .tc main_arg0) = m ((c.tc : Thread nD τ).loc main_arg0) := by
  have h1 := st2_arg0 m c
  generalize after (ops2 (F := F)) (after (ops1 (F := F)) (launchContents m c)) = W at h1 ⊢
  simp only [ops3, ops, List.drop_succ_cons, List.drop_zero, List.take_succ_cons, List.take_zero]
  after_results_simp
  exact h1

set_option maxRecDepth 8192 in
theorem st3_arg1 : after (ops3 (F := F)) (after (ops2 (F := F)) (after (ops1 (F := F)) (launchContents m c))) (Proc.devRef .tc main_arg1) = m ((c.tc : Thread nD τ).loc main_arg1) := by
  have h1 := st2_arg1 m c
  generalize after (ops2 (F := F)) (after (ops1 (F := F)) (launchContents m c)) = W at h1 ⊢
  simp only [ops3, ops, List.drop_succ_cons, List.drop_zero, List.take_succ_cons, List.take_zero]
  after_results_simp
  exact h1

/-! ## The column broadcast over the row -/

set_option maxRecDepth 8192 in
theorem st4_v4 : after (ops4 (F := F)) (after (ops3 (F := F)) (after (ops2 (F := F)) (after (ops1 (F := F)) (launchContents m c)))) (Proc.devRef .tc main_call0_v4)
    = val_main_call0_v4 (F := F) (m ((c.tc : Thread nD τ).loc main_arg0)) := by
  have h3 := st3_v3 m c
  generalize after (ops3 (F := F)) (after (ops2 (F := F)) (after (ops1 (F := F)) (launchContents m c))) = W at h3 ⊢
  simp only [ops4, ops, List.drop_succ_cons, List.drop_zero, List.take_succ_cons, List.take_zero]
  after_results_simp
  rw [h3]
  rfl

set_option maxRecDepth 8192 in
theorem st4_arg0 : after (ops4 (F := F)) (after (ops3 (F := F)) (after (ops2 (F := F)) (after (ops1 (F := F)) (launchContents m c)))) (Proc.devRef .tc main_arg0) = m ((c.tc : Thread nD τ).loc main_arg0) := by
  have h1 := st3_arg0 m c
  generalize after (ops3 (F := F)) (after (ops2 (F := F)) (after (ops1 (F := F)) (launchContents m c))) = W at h1 ⊢
  simp only [ops4, ops, List.drop_succ_cons, List.drop_zero, List.take_succ_cons, List.take_zero]
  after_results_simp
  exact h1

set_option maxRecDepth 8192 in
theorem st4_arg1 : after (ops4 (F := F)) (after (ops3 (F := F)) (after (ops2 (F := F)) (after (ops1 (F := F)) (launchContents m c)))) (Proc.devRef .tc main_arg1) = m ((c.tc : Thread nD τ).loc main_arg1) := by
  have h1 := st3_arg1 m c
  generalize after (ops3 (F := F)) (after (ops2 (F := F)) (after (ops1 (F := F)) (launchContents m c))) = W at h1 ⊢
  simp only [ops4, ops, List.drop_succ_cons, List.drop_zero, List.take_succ_cons, List.take_zero]
  after_results_simp
  exact h1

/-! ## The log-softmax -/

set_option maxRecDepth 8192 in
theorem st5_v0 : after (ops5 (F := F)) (after (ops4 (F := F)) (after (ops3 (F := F)) (after (ops2 (F := F)) (after (ops1 (F := F)) (launchContents m c))))) (Proc.devRef .tc main_v0)
    = val_main_v0 (F := F) (m ((c.tc : Thread nD τ).loc main_arg0)) := by
  have h4 := st4_v4 m c
  have h0 := st4_arg0 m c
  generalize after (ops4 (F := F)) (after (ops3 (F := F)) (after (ops2 (F := F)) (after (ops1 (F := F)) (launchContents m c)))) = W at h4 h0 ⊢
  simp only [ops5, ops, List.drop_succ_cons, List.drop_zero, List.take_succ_cons, List.take_zero]
  after_results_simp
  rw [h4, h0]
  unfold val_main_v0 val_main_call0_v10 val_main_call0_v9 val_main_call0_v8 val_main_call0_v7 val_main_call0_cst_1
    val_main_call0_v6 val_main_call0_v5
  rfl

set_option maxRecDepth 8192 in
theorem st5_arg0 : after (ops5 (F := F)) (after (ops4 (F := F)) (after (ops3 (F := F)) (after (ops2 (F := F)) (after (ops1 (F := F)) (launchContents m c))))) (Proc.devRef .tc main_arg0) = m ((c.tc : Thread nD τ).loc main_arg0) := by
  have h1 := st4_arg0 m c
  generalize after (ops4 (F := F)) (after (ops3 (F := F)) (after (ops2 (F := F)) (after (ops1 (F := F)) (launchContents m c)))) = W at h1 ⊢
  simp only [ops5, ops, List.drop_succ_cons, List.drop_zero, List.take_succ_cons, List.take_zero]
  after_results_simp
  exact h1

set_option maxRecDepth 8192 in
theorem st5_arg1 : after (ops5 (F := F)) (after (ops4 (F := F)) (after (ops3 (F := F)) (after (ops2 (F := F)) (after (ops1 (F := F)) (launchContents m c))))) (Proc.devRef .tc main_arg1) = m ((c.tc : Thread nD τ).loc main_arg1) := by
  have h1 := st4_arg1 m c
  generalize after (ops4 (F := F)) (after (ops3 (F := F)) (after (ops2 (F := F)) (after (ops1 (F := F)) (launchContents m c)))) = W at h1 ⊢
  simp only [ops5, ops, List.drop_succ_cons, List.drop_zero, List.take_succ_cons, List.take_zero]
  after_results_simp
  exact h1

/-! ## The label index -/

set_option maxRecDepth 8192 in
theorem st6_v5 : after (ops6 (F := F)) (after (ops5 (F := F)) (after (ops4 (F := F)) (after (ops3 (F := F)) (after (ops2 (F := F)) (after (ops1 (F := F)) (launchContents m c)))))) (Proc.devRef .tc main_call1_v5)
    = val_main_call1_v5 (F := F) (m ((c.tc : Thread nD τ).loc main_arg1)) := by
  have h1 := st5_arg1 m c
  generalize after (ops5 (F := F)) (after (ops4 (F := F)) (after (ops3 (F := F)) (after (ops2 (F := F)) (after (ops1 (F := F)) (launchContents m c))))) = W at h1 ⊢
  simp only [ops6, ops, List.drop_succ_cons, List.drop_zero, List.take_succ_cons, List.take_zero]
  after_results_simp
  rw [h1]
  unfold val_main_call1_v5 val_main_call1_v4 val_main_call1_v3 val_main_call1_v2 val_main_call1_c_0 val_main_call1_v1
    val_main_call1_v0 val_main_call1_c val_main_v1
  funext i
  rfl

set_option maxRecDepth 8192 in
theorem st6_v0 : after (ops6 (F := F)) (after (ops5 (F := F)) (after (ops4 (F := F)) (after (ops3 (F := F)) (after (ops2 (F := F)) (after (ops1 (F := F)) (launchContents m c)))))) (Proc.devRef .tc main_v0) = val_main_v0 (F := F) (m ((c.tc : Thread nD τ).loc main_arg0)) := by
  have h1 := st5_v0 m c
  generalize after (ops5 (F := F)) (after (ops4 (F := F)) (after (ops3 (F := F)) (after (ops2 (F := F)) (after (ops1 (F := F)) (launchContents m c))))) = W at h1 ⊢
  simp only [ops6, ops, List.drop_succ_cons, List.drop_zero, List.take_succ_cons, List.take_zero]
  after_results_simp
  exact h1

set_option maxRecDepth 8192 in
theorem st6_arg0 : after (ops6 (F := F)) (after (ops5 (F := F)) (after (ops4 (F := F)) (after (ops3 (F := F)) (after (ops2 (F := F)) (after (ops1 (F := F)) (launchContents m c)))))) (Proc.devRef .tc main_arg0) = m ((c.tc : Thread nD τ).loc main_arg0) := by
  have h1 := st5_arg0 m c
  generalize after (ops5 (F := F)) (after (ops4 (F := F)) (after (ops3 (F := F)) (after (ops2 (F := F)) (after (ops1 (F := F)) (launchContents m c))))) = W at h1 ⊢
  simp only [ops6, ops, List.drop_succ_cons, List.drop_zero, List.take_succ_cons, List.take_zero]
  after_results_simp
  exact h1

set_option maxRecDepth 8192 in
theorem st6_arg1 : after (ops6 (F := F)) (after (ops5 (F := F)) (after (ops4 (F := F)) (after (ops3 (F := F)) (after (ops2 (F := F)) (after (ops1 (F := F)) (launchContents m c)))))) (Proc.devRef .tc main_arg1) = m ((c.tc : Thread nD τ).loc main_arg1) := by
  have h1 := st5_arg1 m c
  generalize after (ops5 (F := F)) (after (ops4 (F := F)) (after (ops3 (F := F)) (after (ops2 (F := F)) (after (ops1 (F := F)) (launchContents m c))))) = W at h1 ⊢
  simp only [ops6, ops, List.drop_succ_cons, List.drop_zero, List.take_succ_cons, List.take_zero]
  after_results_simp
  exact h1

/-! ## The picked column -/

set_option maxRecDepth 8192 in
theorem st7_v3 : after (ops7 (F := F)) (after (ops6 (F := F)) (after (ops5 (F := F)) (after (ops4 (F := F)) (after (ops3 (F := F)) (after (ops2 (F := F)) (after (ops1 (F := F)) (launchContents m c))))))) (Proc.devRef .tc main_v3)
    = val_main_v3 (F := F) (m ((c.tc : Thread nD τ).loc main_arg0)) (m ((c.tc : Thread nD τ).loc main_arg1)) := by
  have h0 := st6_v0 m c
  have h5 := st6_v5 m c
  generalize after (ops6 (F := F)) (after (ops5 (F := F)) (after (ops4 (F := F)) (after (ops3 (F := F)) (after (ops2 (F := F)) (after (ops1 (F := F)) (launchContents m c)))))) = W at h0 h5 ⊢
  simp only [ops7, ops, List.drop_succ_cons, List.drop_zero, List.take_succ_cons, List.take_zero]
  after_results_simp
  rw [h0, h5]
  unfold val_main_v3 val_main_v2 val_main_call1_v14 val_main_call1_cst val_main_call1_v13 val_main_call1_v12 val_main_call1_c_3
    val_main_call1_v11 val_main_call1_v10 val_main_call1_v9 val_main_call1_v8 val_main_call1_c_1 val_main_call1_v7
    val_main_call1_v6 val_main_call1_c_2
  funext i
  rfl

set_option maxRecDepth 8192 in
theorem st7_arg0 : after (ops7 (F := F)) (after (ops6 (F := F)) (after (ops5 (F := F)) (after (ops4 (F := F)) (after (ops3 (F := F)) (after (ops2 (F := F)) (after (ops1 (F := F)) (launchContents m c))))))) (Proc.devRef .tc main_arg0) = m ((c.tc : Thread nD τ).loc main_arg0) := by
  have h1 := st6_arg0 m c
  generalize after (ops6 (F := F)) (after (ops5 (F := F)) (after (ops4 (F := F)) (after (ops3 (F := F)) (after (ops2 (F := F)) (after (ops1 (F := F)) (launchContents m c)))))) = W at h1 ⊢
  simp only [ops7, ops, List.drop_succ_cons, List.drop_zero, List.take_succ_cons, List.take_zero]
  after_results_simp
  exact h1

set_option maxRecDepth 8192 in
theorem st7_arg1 : after (ops7 (F := F)) (after (ops6 (F := F)) (after (ops5 (F := F)) (after (ops4 (F := F)) (after (ops3 (F := F)) (after (ops2 (F := F)) (after (ops1 (F := F)) (launchContents m c))))))) (Proc.devRef .tc main_arg1) = m ((c.tc : Thread nD τ).loc main_arg1) := by
  have h1 := st6_arg1 m c
  generalize after (ops6 (F := F)) (after (ops5 (F := F)) (after (ops4 (F := F)) (after (ops3 (F := F)) (after (ops2 (F := F)) (after (ops1 (F := F)) (launchContents m c)))))) = W at h1 ⊢
  simp only [ops7, ops, List.drop_succ_cons, List.drop_zero, List.take_succ_cons, List.take_zero]
  after_results_simp
  exact h1

/-! ## After the whole list -/

set_option maxRecDepth 8192 in
/-- The result buffer ends holding the last stage: the mean's quotient, as a function of the two arguments. -/
theorem result_v10 : after (ops (F := F)) (launchContents m c) (Proc.devRef .tc main_v10)
    = val_main_v10 (F := F) (m ((c.tc : Thread nD τ).loc main_arg0)) (m ((c.tc : Thread nD τ).loc main_arg1)) := by
  rw [after_ops]
  have h3 := st7_v3 m c
  have h1 := st7_arg1 m c
  generalize after (ops7 (F := F)) (after (ops6 (F := F)) (after (ops5 (F := F)) (after (ops4 (F := F)) (after (ops3 (F := F)) (after (ops2 (F := F)) (after (ops1 (F := F)) (launchContents m c))))))) = W at h3 h1 ⊢
  simp only [ops8, ops, List.drop_succ_cons, List.drop_zero, List.take_succ_cons, List.take_zero]
  after_results_simp
  rw [h3, h1]
  unfold val_main_v10 val_main_cst_2 val_main_v9 val_main_cst_1 val_main_v8 val_main_v7 val_main_v6 val_main_call2_v1
    val_main_call2_v0 val_main_cst_0 val_main_cst val_main_v5 val_main_v4 val_main_c
  rfl

set_option maxRecDepth 8192 in
theorem result_arg0 : after (ops (F := F)) (launchContents m c) (Proc.devRef .tc main_arg0) = m ((c.tc : Thread nD τ).loc main_arg0) := by
  rw [after_ops]
  have h1 := st7_arg0 m c
  generalize after (ops7 (F := F)) (after (ops6 (F := F)) (after (ops5 (F := F)) (after (ops4 (F := F)) (after (ops3 (F := F)) (after (ops2 (F := F)) (after (ops1 (F := F)) (launchContents m c))))))) = W at h1 ⊢
  simp only [ops8, ops, List.drop_succ_cons, List.drop_zero, List.take_succ_cons, List.take_zero]
  after_results_simp
  exact h1

set_option maxRecDepth 8192 in
theorem result_arg1 : after (ops (F := F)) (launchContents m c) (Proc.devRef .tc main_arg1) = m ((c.tc : Thread nD τ).loc main_arg1) := by
  rw [after_ops]
  have h1 := st7_arg1 m c
  generalize after (ops7 (F := F)) (after (ops6 (F := F)) (after (ops5 (F := F)) (after (ops4 (F := F)) (after (ops3 (F := F)) (after (ops2 (F := F)) (after (ops1 (F := F)) (launchContents m c))))))) = W at h1 ⊢
  simp only [ops8, ops, List.drop_succ_cons, List.drop_zero, List.take_succ_cons, List.take_zero]
  after_results_simp
  exact h1

/-- Every weakly fair execution of the reference ends with its result at the last stage of the two arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
          = val_main_v10 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (result_v10 m c),
      (h c main_arg0).trans (result_arg0 m c), (h c main_arg1).trans (result_arg1 m c)⟩)
    (Cert.ReferenceIdeal.ValueP.run m ρ)

end Cert.ReferenceIdeal.Stages

end
-- ==== Proof.RefValue.lean ====
/-
  The reference's result, read one operation at a time, is the mean of the row losses.
-/
import proofs.«417755_j57767310131345_3_alg».proof.Proof.RefRead
import proofs.«417755_j57767310131345_3_alg».proof.Proof.Spec
import Idealize.ShloMosaic.PureOps.Ideal.Laws
import Idealize.ShloMosaic.Lib.ValueIdx
import Idealize.ShloMosaic.Lib.Pipeline.Value

noncomputable section

namespace Cert.CrossEntropy.RefValue

open Idealize.ShloMosaic Idealize.ShloMosaic.ValueIdx Cert.ReferenceIdeal Cert.ReferenceIdeal.ReadP

/-! ## The row maximum -/

/-- The row index `r` with column `k` put back is (r, k). -/
private theorem lift_row (h : S4096x32000.Reduces [1] S4096) (r : Fin 4096) (k : Fin (S4096x32000.size 1)) :
    h.lift (ix1 r) k = ix2 r (⟨k.val, k.isLt⟩ : Fin 32000) := by
  funext c; apply Fin.ext
  fin_cases c <;> rfl

/-- From −∞ the reduce with a maximum body over the columns, at row `r`, is the row's maximum. -/
private theorem rowmax_stage (x : FVec Ideal S4096x32000 .f32) (r : Fin 4096) :
    val_main_call0_v0 (F := Ideal) x (ix1 r) = Cert.CrossEntropy.rowMax (fun k => x (ix2 r k)) := by
  unfold val_main_call0_v0
  have h : S4096x32000.Reduces [1] S4096 := by decide
  rw [Host.reduce_eq_fold_single FloatOps.maximumf x _ _ h _]
  unfold Cert.CrossEntropy.rowMax
  have hb : (val_main_call0_cst (F := Ideal)) (Shape.Idx.first Facts₀.h_S_) = (⊥ : EReal) := by
    show Ideal.ofBits .f32 0xFF800000#32 = ⊥
    simp [Ideal.ofBits, Ideal.ieee]
  have hf : (x ∘ h.lift (ix1 r)) = fun k : Fin 32000 => x (ix2 r k) := funext fun k => congrArg x (lift_row h r k)
  rw [hb]
  exact congrArg (fun f => Finset.fold max (⊥ : EReal) f (Finset.univ : Finset (Fin 32000))) hf

/-! ## The log-softmax, read at (r, k) -/

/-- The maximum the program subtracts (the reduce, joined with −∞ once more) is the row's maximum. -/
private theorem max_stage (x : FVec Ideal S4096x32000 .f32) (r : Fin 4096) :
    val_main_call0_v2 (F := Ideal) x (ix1 r) = Cert.CrossEntropy.rowMax (fun k => x (ix2 r k)) := by
  rw [val_main_call0_v2_apply, val_main_call0_v1_apply, val_main_call0_cst_0_apply, rowmax_stage]
  have hb : FloatOps.ofBits (F := Ideal) .f32 0xFF800000#32 = (⊥ : EReal) := by
    show Ideal.ofBits .f32 0xFF800000#32 = ⊥
    simp [Ideal.ofBits, Ideal.ieee]
  rw [hb]
  exact max_bot_left _

/-- The shifted logit at (r, k). -/
private theorem shift_stage (x : FVec Ideal S4096x32000 .f32) (r : Fin 4096) (k : Fin 32000) :
    val_main_call0_v5 (F := Ideal) x (ix2 r k) = x (ix2 r k) - Cert.CrossEntropy.rowMax (fun k => x (ix2 r k)) := by
  rw [val_main_call0_v5_apply, val_main_call0_v4_apply, val_main_call0_v3_apply]
  have hi : idx_main_call0_v3 (idx_main_call0_v4 (ix2 r k)) = ix1 r :=
    funext fun a => Fin.ext (by match a with | ⟨0, _⟩ => rfl)
  rw [hi, max_stage]
  rfl

/-- The logarithm of the row's sum of exponentials, at (r, 0). -/
private theorem logsum_stage (x : FVec Ideal S4096x32000 .f32) (r : Fin 4096) :
    val_main_call0_v9 (F := Ideal) x (ix2 r (0 : Fin 1)) = Cert.CrossEntropy.rowLogSum (fun k => x (ix2 r k)) := by
  rw [val_main_call0_v9_apply, val_main_call0_v8_apply]
  have hi : idx_main_call0_v8 (ix2 r (0 : Fin 1)) = ix1 r :=
    funext fun a => Fin.ext (by match a with | ⟨0, _⟩ => rfl)
  rw [hi, val_main_call0_v7_apply, val_main_call0_cst_1_apply]
  unfold Cert.CrossEntropy.rowLogSum
  rw [Ideal.hostUnary_log_def, Ideal.ofBits_def, Ideal.ofBits_zero_f32, zero_add]
  refine congrArg Ideal.log (Finset.sum_congr rfl fun k _ => ?_)
  rw [val_main_call0_v6_apply, Ideal.hostUnary_exp_def]
  have hk : idx_main_call0_v7 (ix1 r) k = ix2 r k :=
    funext fun a => Fin.ext (by match a with | ⟨0, _⟩ => rfl | ⟨1, _⟩ => rfl)
  rw [hk, shift_stage]

/-- The log-probability at (r, k), in the program's grouping. -/
private theorem logsoftmax_stage (x : FVec Ideal S4096x32000 .f32) (r : Fin 4096) (k : Fin 32000) :
    val_main_v0 (F := Ideal) x (ix2 r k)
      = (x (ix2 r k) - Cert.CrossEntropy.rowMax (fun k => x (ix2 r k))) - Cert.CrossEntropy.rowLogSum (fun k => x (ix2 r k)) := by
  rw [val_main_v0_apply, shift_stage, val_main_call0_v10_apply]
  have hi : idx_main_call0_v10 (ix2 r k) = ix2 r (0 : Fin 1) :=
    funext fun a => Fin.ext (by match a with | ⟨0, _⟩ => rfl | ⟨1, _⟩ => rfl)
  rw [hi, logsum_stage]
  rfl

/-! ## The label words -/

/-- A word below 32000 read as a signed integer is itself. -/
private theorem toInt_of_lt (w : BitVec 32) (h : w.toNat < 32000) : w.toInt = (w.toNat : Int) := by
  have e := BitVec.toInt_eq_toNat_cond w
  rw [e, if_pos (by omega)]

/-- Such a word is not negative … -/
private theorem slt_zero_of_lt (w : BitVec 32) (h : w.toNat < 32000) : IntOp.cmpi .slt w 0#32 = 0#1 := by
  have hi := toInt_of_lt w h
  simp only [IntOp.cmpi, BitVec.slt, hi, BitVec.toInt_zero]
  have : ¬ ((w.toNat : Int) < 0) := by omega
  simp [this]

/-- … it is at least zero … -/
private theorem sge_zero_of_lt (w : BitVec 32) (h : w.toNat < 32000) : IntOp.cmpi .sge w 0#32 = 1#1 := by
  have hi := toInt_of_lt w h
  simp only [IntOp.cmpi, BitVec.sle, hi, BitVec.toInt_zero]
  have : (0 : Int) ≤ (w.toNat : Int) := by omega
  simp [this]

/-- … and at most 31999. -/
private theorem sle_last_of_lt (w : BitVec 32) (h : w.toNat < 32000) : IntOp.cmpi .sle w 31999#32 = 1#1 := by
  have hi := toInt_of_lt w h
  have hc : (31999#32 : BitVec 32).toInt = 31999 := by decide
  simp only [IntOp.cmpi, BitVec.sle, hi, hc]
  have : (w.toNat : Int) ≤ 31999 := by omega
  simp [this]

/-- The start-index word at (r, 0, 0): the label of row `r`, the wrap-around select being the identity on a word
    that is not negative. -/
private theorem index_stage (t : IVec S4096 32) (ht : ∀ r : Fin 4096, (t (ix1 r)).toNat < 32000) (r : Fin 4096)
    (a : Fin 1) (b : Fin 1) :
    val_main_call1_v5 (F := Ideal) t (ix3 r a b) = t (ix1 r) := by
  rw [val_main_call1_v5_apply, val_main_call1_v4_apply, val_main_call1_v1_apply, val_main_v1_apply]
  have hi : idx_main_v1 (idx_main_call1_v5 (ix3 r a b)) = ix1 r :=
    funext fun c => Fin.ext (by
      match c with
      | ⟨0, _⟩ =>
        show ((r.val * 1 + a.val) * 1 + b.val) / 1 = r.val
        have := a.isLt; have := b.isLt; omega)
  rw [hi, val_main_call1_v0_apply, val_main_call1_c_apply, slt_zero_of_lt _ (ht r), select_zero]

/-! ## The in-range test and its reduce over the unit axis -/

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduce by `and` from 1 of an array that is 1 everywhere is 1. -/
private theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  unfold Host.reduce
  rw [hinit]
  exact foldl_andi_one (fun n => x (s.rowMajor.symm n)) (fun n => hx _) _

/-- Every label being a column number, the in-range test holds at every row. -/
private theorem inrange_stage (t : IVec S4096 32) (ht : ∀ r : Fin 4096, (t (ix1 r)).toNat < 32000) (j : S4096x1.Idx) :
    val_main_call1_v12 (F := Ideal) t j = 1#1 := by
  unfold val_main_call1_v12
  refine reduce_andi_of_all _ _ _ _ j rfl fun i => ?_
  obtain ⟨r, a, b, rfl⟩ : ∃ r a b, i = ix3 r a b := ⟨i 0, i 1, i 2, eq_ix3 i⟩
  rw [val_main_call1_v11_apply, val_main_call1_v7_apply, val_main_call1_v10_apply, index_stage t ht,
    val_main_call1_v6_apply, val_main_call1_c_2_apply, val_main_call1_v9_apply, val_main_call1_v8_apply,
    val_main_call1_c_1_apply, sge_zero_of_lt _ (ht r), sle_last_of_lt _ (ht r)]
  rfl

/-! ## The gather along the row, read at (r, 0) -/

/-- The start-indices index (r, 0, 0) of result index (r, 0). -/
private theorem gather_apply {α : Type} (x : S4096x32000.Idx → α) (idx : IVec S4096x1x1 32) (r : Fin 4096) :
    Host.gather gather_S4096x32000_S4096x1x1_S4096x1_n_1_0_0_1_2_11 x idx (ix2 r (0 : Fin 1))
      = x (ix2 r (⟨min (idx (ix3 r (0 : Fin 1) (0 : Fin 1))).toInt.toNat 31999, by omega⟩ : Fin 32000)) := by
  unfold Host.gather
  congr 1
  funext a
  refine Fin.ext ?_
  match a with
  | ⟨0, _⟩ =>
    show gather_S4096x32000_S4096x1x1_S4096x1_n_1_0_0_1_2_11.start (ix2 r (0 : Fin 1)) idx 0
        + gather_S4096x32000_S4096x1x1_S4096x1_n_1_0_0_1_2_11.batchCoord (ix2 r (0 : Fin 1)) 0
        + gather_S4096x32000_S4096x1x1_S4096x1_n_1_0_0_1_2_11.offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S4096x32000_S4096x1x1_S4096x1_n_1_0_0_1_2_11.operandBatchingDims from
      List.mem_singleton.mpr rfl)]
    rfl
  | ⟨1, _⟩ =>
    show gather_S4096x32000_S4096x1x1_S4096x1_n_1_0_0_1_2_11.start (ix2 r (0 : Fin 1)) idx 1
        + gather_S4096x32000_S4096x1x1_S4096x1_n_1_0_0_1_2_11.batchCoord (ix2 r (0 : Fin 1)) 1
        + gather_S4096x32000_S4096x1x1_S4096x1_n_1_0_0_1_2_11.offCoord (ix2 r (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x32000_S4096x1x1_S4096x1_n_1_0_0_1_2_11.startIndexMap from
      List.mem_singleton.mpr rfl)]
    have hsi : gather_S4096x32000_S4096x1x1_S4096x1_n_1_0_0_1_2_11.siIdx (ix2 r (0 : Fin 1))
        ⟨List.idxOf (1 : Fin 2) gather_S4096x32000_S4096x1x1_S4096x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-- The gathered entry at (r, 0): the log-probability of row `r` at its label's column. -/
private theorem gather_stage (x : FVec Ideal S4096x32000 .f32) (t : IVec S4096 32)
    (ht : ∀ r : Fin 4096, (t (ix1 r)).toNat < 32000) (r : Fin 4096) :
    val_main_call1_v13 (F := Ideal) x t (ix2 r (0 : Fin 1))
      = val_main_v0 (F := Ideal) x (ix2 r (Cert.CrossEntropy.col (t (ix1 r)))) := by
  unfold val_main_call1_v13
  rw [gather_apply]
  have hc : (⟨min (val_main_call1_v5 (F := Ideal) t (ix3 r (0 : Fin 1) (0 : Fin 1))).toInt.toNat 31999, by omega⟩ : Fin 32000)
      = Cert.CrossEntropy.col (t (ix1 r)) := by
    apply Fin.ext
    show min (val_main_call1_v5 (F := Ideal) t (ix3 r (0 : Fin 1) (0 : Fin 1))).toInt.toNat 31999 = (t (ix1 r)).toNat % 32000
    have h := ht r
    rw [index_stage t ht, toInt_of_lt _ h, Int.toNat_natCast, Nat.mod_eq_of_lt h]
    omega
  exact congrArg (fun c => val_main_v0 (F := Ideal) x (ix2 r c)) hc

/-! ## The weight -/

/-- The select on "the label is not 0" between the words 1.5 and 1.0 is the label's weight. -/
private theorem weight_stage (t : IVec S4096 32) (r : Fin 4096) :
    val_main_v6 (F := Ideal) t (ix1 r) = Cert.CrossEntropy.weight (t (ix1 r)) := by
  rw [val_main_v6_apply, val_main_v5_apply, val_main_v4_apply, val_main_c_apply, val_main_call2_v0_apply,
    val_main_cst_apply, val_main_call2_v1_apply, val_main_cst_0_apply]
  unfold Cert.CrossEntropy.weight
  by_cases h : t (ix1 r) = 0#32
  · rw [h, if_pos rfl]
    rfl
  · rw [if_neg h]
    have hc : IntOp.cmpi .ne (t (ix1 r)) 0#32 = 1#1 := by
      show BitVec.ofBool (t (ix1 r) != 0#32) = 1#1
      rw [show (t (ix1 r) != 0#32) = true from bne_iff_ne.mpr h]
      rfl
    rw [hc, select_one]
    rfl

/-! ## One row, and the mean -/

/-- The negated, weighted log-probability of row `r` is the row's loss. -/
private theorem row_stage (x : FVec Ideal S4096x32000 .f32) (t : IVec S4096 32)
    (ht : ∀ r : Fin 4096, (t (ix1 r)).toNat < 32000) (r : Fin 4096) :
    val_main_v8 (F := Ideal) x t (ix1 r) = Cert.CrossEntropy.rowLoss (fun k => x (ix2 r k)) (t (ix1 r)) := by
  rw [val_main_v8_apply, val_main_v7_apply, val_main_v3_apply, val_main_v2_apply]
  have hi : idx_main_v3 (ix1 r) = ix2 r (0 : Fin 1) :=
    funext fun a => Fin.ext (by
      match a with
      | ⟨0, _⟩ => exact Nat.div_one _
      | ⟨1, _⟩ => rfl)
  rw [hi, inrange_stage t ht, select_one, gather_stage x t ht, logsoftmax_stage, weight_stage]
  rfl

/-- The rank-1 index set of extent 4096 is `Fin 4096`. -/
private def rowEquiv : S4096.Idx ≃ Fin 4096 where
  toFun j := j 0
  invFun r := ix1 r
  left_inv j := (eq_ix1 j).symm
  right_inv _ := rfl

/-- With every label a column number, the reference's result is the mean loss. -/
theorem ref_value (x : FVec Ideal S4096x32000 .f32) (t : IVec S4096 32)
    (ht : ∀ r : Fin 4096, (t (ix1 r)).toNat < 32000) (i : S_.Idx) :
    val_main_v10 (F := Ideal) x t i = Cert.CrossEntropy.meanLoss x t := by
  rw [val_main_v10_apply, val_main_v9_apply, val_main_cst_1_apply, val_main_cst_2_apply]
  unfold Cert.CrossEntropy.meanLoss
  rw [Ideal.hostDivf_def, Ideal.ofBits_def, Ideal.ofBits_def, Ideal.ofBits_zero_f32, zero_add]
  congr 1
  rw [← Equiv.sum_comp rowEquiv.symm]
  exact Finset.sum_congr rfl fun r _ => row_stage x t ht r

end Cert.CrossEntropy.RefValue

end
-- ==== Proof.lean ====
/-
  Cross-entropy with a label weight: a kernel that reads each block of 128 rows once — row maximum, log of the row
  sum of shifted exponentials, the label's logit picked as a masked row sum — against log-softmax followed by a gather
  of the label's column; both followed by the mean over the 4096 rows.

  Under the precondition every logit is a real number and every label is a column number. Then, over the extended
  reals, both programs' result is `meanLoss` of the two arguments (Proof/Spec.lean): the mean over the rows of
  `−(((v t − M) − L) · w)`, with `M` the row maximum, `L = log ∑ exp (v − M)` and `w` the label's weight. The
  kernel forms `v t − (M + L)`, which is `(v t − M) − L` because `v t` and `M` are real, and it picks `v t` as
  `∑_k [k = t] · v k`, which is `v t` because `t` is a column. The idealization rewrote nothing, so the third claim
  is trivial; the frames are the generated ones, and the reference's frame is its run with the result dropped.
-/
import proofs.«417755_j57767310131345_3_alg».proof.Defs
import proofs.«417755_j57767310131345_3_alg».proof.Proof.Gen.Kernel
import proofs.«417755_j57767310131345_3_alg».proof.Proof.Gen.Kernel.Skeleton
import proofs.«417755_j57767310131345_3_alg».proof.Proof.Gen.Kernel.Launch
import proofs.«417755_j57767310131345_3_alg».proof.Proof.Gen.Kernel.Points
import proofs.«417755_j57767310131345_3_alg».proof.Proof.Gen.Kernel.Frame
import proofs.«417755_j57767310131345_3_alg».proof.Proof.Gen.KernelIdeal
import proofs.«417755_j57767310131345_3_alg».proof.Proof.Gen.KernelIdeal.Skeleton
import proofs.«417755_j57767310131345_3_alg».proof.Proof.Gen.KernelIdeal.Launch
import proofs.«417755_j57767310131345_3_alg».proof.Proof.Gen.KernelIdeal.Points
import proofs.«417755_j57767310131345_3_alg».proof.Proof.Gen.KernelIdeal.Frame
import proofs.«417755_j57767310131345_3_alg».proof.Proof.Gen.ReferenceIdeal
import proofs.«417755_j57767310131345_3_alg».proof.Proof.Gen.Pre_finite_inputs
import proofs.«417755_j57767310131345_3_alg».proof.Proof.Spec
import proofs.«417755_j57767310131345_3_alg».proof.Proof.PreDecode
import proofs.«417755_j57767310131345_3_alg».proof.Proof.KernelArray
import proofs.«417755_j57767310131345_3_alg».proof.Proof.RefStages
import proofs.«417755_j57767310131345_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- Both idealized programs, from memories agreeing on the arguments, end with the mean loss of the arguments. -/
theorem algebraic : Cert.algebraic_KernelIdeal_ReferenceIdeal := by
  intro m ρ m' ρ' hpre hagree
  have hreal : ∀ (c : Dev Cert.KernelIdeal.nD) (i : Cert.KernelIdeal.S4096x32000.Idx), ∃ r : ℝ,
      ((m ((c.tc : Thread Cert.KernelIdeal.nD Cert.KernelIdeal.τ).loc Cert.KernelIdeal.main_arg0) : Cert.KernelIdeal.S4096x32000.Idx → EReal) i) = (r : EReal) :=
    fun c i => Cert.CrossEntropy.Pre.real_of_pre _ _ (hpre c) i
  have hrange : ∀ (c : Dev Cert.KernelIdeal.nD) (r : Fin 4096),
      ((m ((c.tc : Thread Cert.KernelIdeal.nD Cert.KernelIdeal.τ).loc Cert.KernelIdeal.main_arg1) : Cert.KernelIdeal.S4096.Idx → BitVec 32) (ValueIdx.ix1 r)).toNat < 32000 :=
    fun c r => Cert.CrossEntropy.Pre.range_of_pre _ _ (hpre c) r
  refine ⟨fun c => fun _ => Cert.CrossEntropy.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ hreal hrange, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2]
  funext i
  exact Cert.CrossEntropy.RefValue.ref_value _ _ (hrange c) i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
